-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩

abbrev nBuf : Space → Nat
  | .hbm => 17
  | .vmem => 7
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024, .f32⟩
  | .local _ .vmem, ⟨1, _⟩ => ⟨S1024, .f32⟩
  | .local _ .vmem, ⟨2, _⟩ => ⟨S1024, .f32⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S16384, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_cst_4 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c1024_i32 : BitVec 32 := 1024#32
  let v21 : BitVec 32 := Scalar.muli arg1 c1024_i32
  v21
def k0_off1 (i : grid0.Coords) : Fin 1 → Nat :=
  let arg1 : BitVec 32 := BitVec.ofNat 32 (i 1).val
  let c1024_i32 : BitVec 32 := 1024#32
  let v21 : BitVec 32 := Scalar.muli arg1 c1024_i32
  let v22 : BitVec 32 := v21
  let v23 : Index := Scalar.indexCast v22
  ![v23.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S16384_S16384_0 : ∀ a, (![0] : Fin 1 → Nat) a + S16384.size a ≤ S16384.size a
  h_S16384 : 0 < S16384.numel
  inb_S1024_S1024_0 : ∀ a, (![0] : Fin 1 → Nat) a + S1024.size a ≤ S1024.size a
  h_S1024 : 0 < S1024.numel
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  shapeCasts_S1024_S1024 : S1024.ShapeCasts S1024
  reduces_S1024x1024_S1024 : S1024x1024.Reduces [1] S1024
  reduces_S1024x1024_S1024_2 : S1024x1024.Reduces [0] S1024
  reducesTo_S16384_S_d0 : S16384.ReducesTo [0] S_
  h_S_ : 0 < S_.numel
  hrank0 : 0 < grid0.rank
  k0_mult1_dvd : ∀ i : grid0.Coords, 128 ∣ (k0_mult1 i).toNat
  k0_off1_inb : ∀ i : grid0.Coords, ∀ a, (k0_off1 i) a + S1024.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S16384.size a
  hwx0_0 : ∀ i : grid0.Coords, EltTy.bits .f32 = 32 ∨ (Rect.block (s := S16384) S1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S16384.size a
  hwx0_1 : ∀ i : grid0.Coords, EltTy.bits .f32 = 32 ∨ (Rect.block (s := S16384) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .f32 = 32 ∨ (Rect.block (s := S16384) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16384.size a ≤ S16384.size a
  hwx0_3 : ∀ i : grid0.Coords, EltTy.bits .f32 = 32 ∨ (Rect.block (s := S16384) S16384.size (cc0_transform_3 i) (hinb0_3 i)).WholeWords (EltTy.packing .f32)

variable [Facts₀]

abbrev win0_0 : Pipeline.Window sig grid0 :=
  Pipeline.Window.ofSpec (Memref.whole main_arg0) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S16384.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384x1, .f32⟩
  | .hbm, ⟨3, _⟩ => ⟨S1x16384, .f32⟩
  | .hbm, ⟨4, _⟩ => ⟨S16384x16384, .f32⟩
  | .hbm, ⟨5, _⟩ => ⟨S16384x16384, .f32⟩
  | .hbm, ⟨6, _⟩ => ⟨S16384x16384, .f32⟩
  | .hbm, ⟨7, _⟩ => ⟨S16384x16384, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  reducesTo_S16384x16384_S16384_d1 : S16384x16384.ReducesTo [1] S16384
  h_S_ : 0 < S_.numel
  reducesTo_S16384_S_d0 : S16384.ReducesTo [0] S_
  reducesTo_S16384x16384_S16384_d0 : S16384x16384.ReducesTo [0] S16384

variable [Facts₀]

class Facts : Prop extends Facts₀ where

variable [Facts]
-- ==== Proof.Spec.lean ====
/-
  The mathematics both programs compute, stated once over the extended reals and importing no program.
  For two arrays x, y of 16384 extended reals: the distance |a - b| as the maximum of a - b and its negation;
  the array of row minima R(p) = min over q of |x p - y q| and of column minima C(q) = min over p of |x p - y q|,
  each carried by its universal property (z is below the minimum exactly when z is below every term), which determines
  it; and the scalar both programs end with, 0.5 * (sum R) / 16384 + 0.5 * (sum C) / 16384, as one function of R and C.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The arrays' shape f32[16384], a block's shape f32[1024], and the scalar shape. -/
abbrev Arr : Shape := ⟨1, ![16384]⟩
abbrev Blk : Shape := ⟨1, ![1024]⟩
abbrev Sc : Shape := ⟨0, ![]⟩

/-- |a - b| on the extended reals: the larger of a - b and its negation. -/
def dist (a b : EReal) : EReal := max (a - b) (-(a - b))

/-- R is the array of row minima: R p is the greatest lower bound of |x p - y q| over all q. -/
def IsRowMin (x y R : Arr.Idx → EReal) : Prop :=
  ∀ (p : Fin 16384) (z : EReal), z ≤ R (ix1 p) ↔ ∀ q : Fin 16384, z ≤ dist (x (ix1 p)) (y (ix1 q))

/-- C is the array of column minima: C q is the greatest lower bound of |x p - y q| over all p. -/
def IsColMin (x y C : Arr.Idx → EReal) : Prop :=
  ∀ (q : Fin 16384) (z : EReal), z ≤ C (ix1 q) ↔ ∀ p : Fin 16384, z ≤ dist (x (ix1 p)) (y (ix1 q))

/-- The universal property determines the row minima. -/
theorem IsRowMin.unique {x y R R' : Arr.Idx → EReal} (h : IsRowMin x y R) (h' : IsRowMin x y R') : R = R' := by
  funext j
  rw [eq_ix1 j]
  exact eq_of_forall_le_iff fun z => (h (j 0) z).trans (h' (j 0) z).symm

/-- The universal property determines the column minima. -/
theorem IsColMin.unique {x y C C' : Arr.Idx → EReal} (h : IsColMin x y C) (h' : IsColMin x y C') : C = C' := by
  funext j
  rw [eq_ix1 j]
  exact eq_of_forall_le_iff fun z => (h (j 0) z).trans (h' (j 0) z).symm

/-- The scalar both programs end with, as one function of the two arrays of minima:
    0.5 * (0 + sum R) / 16384 + 0.5 * (0 + sum C) / 16384, in the operations and the literals both programs print. -/
def tail (hred : Arr.ReducesTo [0] Sc) (hpos : 0 < Sc.numel) (R C : FVec Ideal Arr .f32) : FVec Ideal Sc .f32 :=
  addf
    (Host.divf (mulf (constant Sc .f32 0x3F000000#32) (Host.reduceAdd R (constant Sc .f32 0x00000000#32) hred hpos))
      (constant Sc .f32 0x46800000#32))
    (Host.divf (mulf (constant Sc .f32 0x3F000000#32) (Host.reduceAdd C (constant Sc .f32 0x00000000#32) hred hpos))
      (constant Sc .f32 0x46800000#32))

end Cert.Chamfer

end
-- ==== Proof.K.Runs.lean ====
/-
  What the three runs of the kernel body share. The body branches twice on the grid point (i, j): it resets the whole
  column accumulator at the first point only, (i, j) = (0, 0), and resets the row accumulator's block whenever j = 0.
  Over the 16 x 16 grid, numbered t = 16 i + j, the first condition holds exactly at t = 0 and the second exactly at the
  multiples of 16. Also here: each window's current staging buffer at a point, and what one point does to the column
  accumulator — the 1024 entries from 1024 j on are replaced by the smaller of the old entry and the tile's column
  minimum, every other entry is kept.
-/
import proofs.«145915_j59158879535331_1_alg».proof.Proof.Gen.Kernel.Frame
import proofs.«145915_j59158879535331_1_alg».proof.Proof.Gen.Kernel.Skeleton
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition, from the grid coordinates: both coordinates are zero. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 256 = 0 :=
  (by decide +kernel : ∀ t : Fin grid0.N, cond0_0 (grid0.coords t) ↔ t.val % 256 = 0)

/-- The second branch's condition: the inner coordinate is zero. -/
abbrev cond0_1 (i : grid0.Coords) : Prop := (Scalar.cmpi .ne (Scalar.extui (Scalar.cmpi .eq (BitVec.ofNat 32 (i 1).val) 0#32)) 0#32) = 1#1
/-- It holds at the multiples of 16. -/
theorem hcond0_1 : ∀ t : Fin cfg0.N, cond0_1 (grid0.coords t) ↔ t.val % 16 = 0 :=
  (by decide +kernel : ∀ t : Fin grid0.N, cond0_1 (grid0.coords t) ↔ t.val % 16 = 0)

/-- The column accumulator's slice starts at 1024 j. -/
theorem off_eq : ∀ t : Fin cfg0.N, k0_off1 (grid0.coords t) = ![1024 * (t.val % 16)] :=
  (by decide +kernel : ∀ t : Fin grid0.N, k0_off1 (grid0.coords t) = ![1024 * (t.val % 16)])

/-- Each window's current staging buffer at point t, and that it is a whole buffer. -/
abbrev ms0_0 (t : Fin cfg0.N) : Memref sig .tc .vmem S1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16384 .f32 := win0_3.stage (cfg0.slots t 3)
abbrev hs0_3 (t : Fin cfg0.N) : (ms0_3 t).IsWhole := hstage0_3 ((cfg0.slots t 3).cast nbuf0_3)

/-- The rectangle of the column accumulator the point (i, j) reads and rewrites: 1024 entries from the offset on. -/
abbrev colRect (i : grid0.Coords) : Rect S16384 := Rect.unit (s := S16384) (k0_off1 i) S1024.size (k0_off1_inb i)

/-- One point's effect on the column accumulator: inside the rectangle the stored value (the smaller of the old slice
    and the tile's column minima) at the position within the rectangle, outside it the old entry. -/
def colUpd (i : grid0.Coords) (xb yb : Vec F S1024 .f32) (prev : Vec F S16384 .f32) : Vec F S16384 .f32 :=
  fun y => if h : ∀ a, (k0_off1 i) a ≤ (y a).val ∧ (y a).val < (k0_off1 i) a + S1024.size a then
      k0_pay5 xb yb (View.ld prev (colRect i)) (Rect.unitLocal (s := S16384) (off := k0_off1 i) (size := S1024.size) y h)
    else prev y

/-- The first two offsets of a whole-buffer rectangle are zero. -/
theorem hz1 : (![0] : Fin 1 → Nat) = fun _ => 0 := funext fun a => by fin_cases a; rfl

end Cert.Kernel.Body

end
-- ==== Proof.K.Run.lean ====
/-
  The kernel body run once in each of the three cases its two branches leave over the grid, on whole staging buffers.
  In every case the two input buffers are read and left as found. First point (both resets taken): whatever the two
  accumulator buffers held, the row buffer ends at the tile's row minima folded into +infinity and the column buffer at
  +infinity everywhere but on its slice, which holds the tile's column minima folded into +infinity. Later points with
  j = 0 (only the row reset taken): the row buffer as before, the column buffer at its update of what it held. All other
  points (no reset): both buffers at their updates of what they held. What a partial store leaves is read entry by entry:
  inside the stored rectangle the stored value, outside it the old entry.
-/
import proofs.«145915_j59158879535331_1_alg».proof.Proof.K.Runs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first point: both accumulators are reset before they are read. -/
theorem kernelRun0_A (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S16384 .f32) (harg5 : arg5.IsWhole) (hc0 : cond0_0 i) (hc1 : cond0_1 i)
    (x0 : Vec F S1024 .f32) (x1 : Vec F S1024 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ owns (c : Thread nD τ) arg4 fullShare (k0_pay4 x0 x1 k0_pay2) ∗ owns (c : Thread nD τ) arg5 fullShare (colUpd i x0 x1 k0_pay1)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_cons_self, View.mem_set_unit_zero hz1 inb_S1024_S1024_0 y⟩), View.canon_cons_unit_zero hz1]
      sl_unfold_words
      rw [View.readCov_unit_zero (S := S1024) _ hz1]
      simp only [View.readAt_eq_ld, harg2.read_unread, harg3.read_unread, View.ld_unit_zero (S := S1024) hz1]
    iexists _; isplitr; swap; · iexact H3
    ipureintro
    funext y
    unfold colUpd
    sl_unfold_run_names
    rw [View.read_writes_cons_unit _ _ (k0_off1_inb i) _ _ y rfl]
    simp only [View.readAt_writes_junk_eq_canon, View.read_writes_junk_eq_canon, View.canon_unit_zero (S := S16384) hz1, View.readAt_eq_ld, harg2.read_unread, harg3.read_unread, View.ld_unit_zero (S := S1024) hz1]

set_option maxHeartbeats 1000000 in
/-- A later point with j = 0: the row accumulator is reset, the column accumulator continues from its contents. -/
theorem kernelRun0_C (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S16384 .f32) (harg5 : arg5.IsWhole) (hc0 : ¬cond0_0 i) (hc1 : cond0_1 i)
    (x0 : Vec F S1024 .f32) (x1 : Vec F S1024 .f32) (xo3 : Vec F S16384 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3
            ∗ (iprop(owns (c : Thread nD τ) arg2 fullShare x0 ∗ owns (c : Thread nD τ) arg3 fullShare x1 ∗ owns (c : Thread nD τ) arg4 fullShare (k0_pay4 x0 x1 k0_pay2) ∗ owns (c : Thread nD τ) arg5 fullShare (colUpd i x0 x1 xo3)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_cons_self, View.mem_set_unit_zero hz1 inb_S1024_S1024_0 y⟩), View.canon_cons_unit_zero hz1]
      sl_unfold_words
      rw [View.readCov_unit_zero (S := S1024) _ hz1]
      simp only [View.readAt_eq_ld, harg2.read_unread, harg3.read_unread, View.ld_unit_zero (S := S1024) hz1]
    iexists _; isplitr; swap; · iexact H3
    ipureintro
    funext y
    unfold colUpd
    rw [View.read_writes_cons_unit _ _ (k0_off1_inb i) _ [] y rfl]
    simp only [View.writes_nil, harg5.read_unread, View.readAt_eq_ld, harg2.read_unread, harg3.read_unread, View.ld_unit_zero (S := S1024) hz1]

set_option maxHeartbeats 1000000 in
/-- Every other point: both accumulators continue from their contents. -/
theorem kernelRun0_B (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S16384 .f32) (harg5 : arg5.IsWhole) (hc0 : ¬cond0_0 i) (hc1 : ¬cond0_1 i)
    (x0 : Vec F S1024 .f32) (x1 : Vec F S1024 .f32) (xo2 : Vec F S1024 .f32) (xo3 : Vec F S16384 .f32) :
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ owns (c : Thread nD τ) arg4 fullShare (k0_pay4 x0 x1 xo2) ∗ owns (c : Thread nD τ) arg5 fullShare (colUpd i x0 x1 xo3)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_singleton_self _, View.mem_set_unit_zero hz1 inb_S1024_S1024_0 y⟩), View.canon_unit_zero hz1]
      simp only [View.readAt_eq_ld, harg2.read_unread, harg3.read_unread, harg4.read_unread, View.ld_unit_zero (S := S1024) hz1]
    iexists _; isplitr; swap; · iexact H3
    ipureintro
    funext y
    unfold colUpd
    rw [View.read_writes_cons_unit _ _ (k0_off1_inb i) _ [] y rfl]
    simp only [View.writes_nil, harg5.read_unread, View.readAt_eq_ld, harg2.read_unread, harg3.read_unread, View.ld_unit_zero (S := S1024) hz1]

end Cert.Kernel.Body

end
-- ==== Proof.K.Outs.lean ====
/-
  What the two accumulators hold after each grid point, by recursion on the point's number t = 16 i + j. The row
  accumulator's block restarts from +infinity whenever j = 0 and otherwise continues from what the point before left;
  the column accumulator restarts from +infinity at the first point only and otherwise continues. Each point folds its
  tile's row minima into the first and its tile's column minima into the 1024 entries of the second that start at 1024 j.
-/
import proofs.«145915_j59158879535331_1_alg».proof.Proof.K.Runs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The two input blocks at point t, at their literal type. -/
abbrev xblk (c : Dev nD) (t : Fin cfg0.N) : Vec F S1024 .f32 := iblk m c 0 t
abbrev yblk (c : Dev nD) (t : Fin cfg0.N) : Vec F S1024 .f32 := iblk m c 1 t

/-- The row accumulator's block and the whole column accumulator after the body at point n. -/
def outsAt0 (c : Dev nD) : (n : ℕ) → n < cfg0.N → Vec F S1024 .f32 × Vec F S16384 .f32
  | 0, hn => (k0_pay4 (xblk m c ⟨0, hn⟩) (yblk m c ⟨0, hn⟩) k0_pay2,
      colUpd (grid0.coords ⟨0, hn⟩) (xblk m c ⟨0, hn⟩) (yblk m c ⟨0, hn⟩) k0_pay1)
  | n + 1, hn =>
    (if (n + 1) % 16 = 0 then k0_pay4 (xblk m c ⟨n + 1, hn⟩) (yblk m c ⟨n + 1, hn⟩) k0_pay2
      else k0_pay4 (xblk m c ⟨n + 1, hn⟩) (yblk m c ⟨n + 1, hn⟩) (outsAt0 c n (Nat.lt_of_succ_lt hn)).1,
      colUpd (grid0.coords ⟨n + 1, hn⟩) (xblk m c ⟨n + 1, hn⟩) (yblk m c ⟨n + 1, hn⟩) (outsAt0 c n (Nat.lt_of_succ_lt hn)).2)

/-- At a point with j = 0 the row block is the tile's row minima folded into +infinity. -/
theorem row_reset (c : Dev nD) (t : Fin cfg0.N) (h1 : t.val % 16 = 0) :
    (outsAt0 m c t.val t.isLt).1 = k0_pay4 (xblk m c t) (yblk m c t) k0_pay2 := by
  obtain ⟨n, hn⟩ := t
  cases n with
  | zero => rfl
  | succ n => exact (if_pos h1)

/-- At a point with j ≠ 0 it is the tile's row minima folded into what the point before left. -/
theorem row_cont (c : Dev nD) (t : Fin cfg0.N) (h1 : ¬t.val % 16 = 0) :
    (outsAt0 m c t.val t.isLt).1
      = k0_pay4 (xblk m c t) (yblk m c t) (outsAt0 m c (t.val - 1) (Nat.lt_of_le_of_lt (Nat.sub_le _ _) t.isLt)).1 := by
  obtain ⟨n, hn⟩ := t
  cases n with
  | zero => exact absurd (Nat.zero_mod _) h1
  | succ n => exact (if_neg h1)

/-- At the first point the column accumulator is the tile's column minima folded into +infinity on its first 1024
    entries, +infinity elsewhere. -/
theorem col_first (c : Dev nD) (t : Fin cfg0.N) (h0 : t.val = 0) :
    (outsAt0 m c t.val t.isLt).2 = colUpd (grid0.coords t) (xblk m c t) (yblk m c t) k0_pay1 := by
  obtain ⟨n, hn⟩ := t
  cases n with
  | zero => rfl
  | succ n => exact absurd h0 (Nat.succ_ne_zero n)

/-- At every later point it is the point's update of what the point before left. -/
theorem col_cont (c : Dev nD) (t : Fin cfg0.N) (h0 : ¬t.val = 0) :
    (outsAt0 m c t.val t.isLt).2
      = colUpd (grid0.coords t) (xblk m c t) (yblk m c t) (outsAt0 m c (t.val - 1) (Nat.lt_of_le_of_lt (Nat.sub_le _ _) t.isLt)).2 := by
  obtain ⟨n, hn⟩ := t
  cases n with
  | zero => exact absurd rfl h0
  | succ n => rfl

end Cert.Kernel.Body

end
-- ==== Proof.K.Frame.lean ====
/-
  The frame of the program from the body's three runs. The proof data name what each window's staging buffer holds
  after the body at each point: an input's its block, the two outputs' the running accumulators of the recursion over
  the points. Before the body an input's buffer holds its block whether fetched at the point or not; the row
  accumulator's buffer holds anything at a point with j = 0 (the first point, or the point after a write-back) and
  otherwise what the point before left (it is written back only after j = 15); the column accumulator's buffer holds
  anything at the first point and otherwise what the point before left (it is written back only after the last point).
  So at each point the run of its case applies, and the pipeline's launch gives the whole run: every array of the
  pipeline ends at what the proof data compute, every other buffer at what the closing host operations compute.
-/
import proofs.«145915_j59158879535331_1_alg».proof.Proof.K.Run
import proofs.«145915_j59158879535331_1_alg».proof.Proof.K.Outs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point with j = 0 the row accumulator's buffer is fresh: the first point, or the point after a write-back. -/
theorem before0_2_fresh (c : Dev nD) (t : Fin cfg0.N) (h1 : t.val % 16 = 0) (d) : (dats m 0 c).before 2 t d = d := by
  have hN : t.val < 256 := lt_of_lt_of_eq t.isLt (show cfg0.N = 256 from N_0)
  refine Dat.before_out_reset _ 2 rfl t ?_ d
  by_cases h0 : t.val = 0
  · exact Or.inl h0
  · exact Or.inr ⟨h0, (flush0_2 _).mpr (by dsimp only; omega)⟩

/-- At a point with j ≠ 0 it holds what the point before left. -/
theorem before0_2_kept (c : Dev nD) (t : Fin cfg0.N) (h1 : ¬t.val % 16 = 0) (d) :
    (dats m 0 c).before 2 t d = (outsAt0 m c (t.val - 1) (Nat.lt_of_le_of_lt (Nat.sub_le _ _) t.isLt)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- At the first point the column accumulator's buffer is fresh. -/
theorem before0_3_fresh (c : Dev nD) (t : Fin cfg0.N) (h0 : t.val = 0) (d) : (dats m 0 c).before 3 t d = d :=
  Dat.before_out_reset _ 3 rfl t (Or.inl h0) d

/-- At every later point it holds what the point before left. -/
theorem before0_3_kept (c : Dev nD) (t : Fin cfg0.N) (h0 : ¬t.val = 0) (d) :
    (dats m 0 c).before 3 t d = (outsAt0 m c (t.val - 1) (Nat.lt_of_le_of_lt (Nat.sub_le _ _) t.isLt)).2 := by
  have hN : t.val < 256 := lt_of_lt_of_eq t.isLt (show cfg0.N = 256 from N_0)
  rw [Dat.before_out_kept _ 3 rfl t h0 (Bool.eq_false_iff.mpr fun h => by have := (flush0_3 _).mp h; dsimp only at this; omega)
    (fun _ => rfl) (fun _ _ => rfl)]
  dsimp only [dats]

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1200000 in
/-- The body at any point: the point's case is read off its number, the buffers hold what the case's run asks, and the
    run leaves what the recursion names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 256 := lt_of_lt_of_eq t.isLt (show cfg0.N = 256 from N_0)
  by_cases h0 : t.val % 256 = 0
  · have h0' : t.val = 0 := by omega
    have h1 : t.val % 16 = 0 := by omega
    rw [row_reset m c t h1, col_first m c t h0']
    simp only [before0_2_fresh m c t h1, before0_3_fresh m c t h0']
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) ((hcond0_1 t).mpr h1) (iblk m c 0 t) (iblk m c 1 t)) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have h0' : ¬t.val = 0 := by omega
    by_cases h1 : t.val % 16 = 0
    · rw [row_reset m c t h1, col_cont m c t h0']
      simp only [before0_2_fresh m c t h1, before0_3_kept m c t h0']
      iintro ⟨HΦ, Ho, ⟨%d0, H0⟩, ⟨%d1, H1⟩, ⟨%d2, H2⟩, ⟨%d3, H3⟩⟩
      iapply ((kernelRun0_C c (grid0.coords t) _ _ _ _ _ _ _ _ (fun h => h0 ((hcond0_0 t).mp h)) ((hcond0_1 t).mpr h1) (iblk m c 0 t) (iblk m c 1 t) _) Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [row_cont m c t h1, col_cont m c t h0']
      simp only [before0_2_kept m c t h1, before0_3_kept m c t h0']
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) (fun h => h1 ((hcond0_1 t).mp h)) (iblk m c 0 t) (iblk m c 1 t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: every weakly fair execution terminates, every array of the pipeline ends at what the proof data compute
    and every other unscoped buffer at what the closing host operations compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Runs.lean ====
/-
  What the three runs of the kernel body share. The body branches twice on the grid point (i, j): it resets the whole
  column accumulator at the first point only, (i, j) = (0, 0), and resets the row accumulator's block whenever j = 0.
  Over the 16 x 16 grid, numbered t = 16 i + j, the first condition holds exactly at t = 0 and the second exactly at the
  multiples of 16. Also here: each window's current staging buffer at a point, and what one point does to the column
  accumulator — the 1024 entries from 1024 j on are replaced by the smaller of the old entry and the tile's column
  minimum, every other entry is kept.
-/
import proofs.«145915_j59158879535331_1_alg».proof.Proof.Gen.KernelIdeal.Frame
import proofs.«145915_j59158879535331_1_alg».proof.Proof.Gen.KernelIdeal.Skeleton
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition, from the grid coordinates: both coordinates are zero. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 256 = 0 :=
  (by decide +kernel : ∀ t : Fin grid0.N, cond0_0 (grid0.coords t) ↔ t.val % 256 = 0)

/-- The second branch's condition: the inner coordinate is zero. -/
abbrev cond0_1 (i : grid0.Coords) : Prop := (Scalar.cmpi .ne (Scalar.extui (Scalar.cmpi .eq (BitVec.ofNat 32 (i 1).val) 0#32)) 0#32) = 1#1
/-- It holds at the multiples of 16. -/
theorem hcond0_1 : ∀ t : Fin cfg0.N, cond0_1 (grid0.coords t) ↔ t.val % 16 = 0 :=
  (by decide +kernel : ∀ t : Fin grid0.N, cond0_1 (grid0.coords t) ↔ t.val % 16 = 0)

/-- The column accumulator's slice starts at 1024 j. -/
theorem off_eq : ∀ t : Fin cfg0.N, k0_off1 (grid0.coords t) = ![1024 * (t.val % 16)] :=
  (by decide +kernel : ∀ t : Fin grid0.N, k0_off1 (grid0.coords t) = ![1024 * (t.val % 16)])

/-- Each window's current staging buffer at point t, and that it is a whole buffer. -/
abbrev ms0_0 (t : Fin cfg0.N) : Memref sig .tc .vmem S1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16384 .f32 := win0_3.stage (cfg0.slots t 3)
abbrev hs0_3 (t : Fin cfg0.N) : (ms0_3 t).IsWhole := hstage0_3 ((cfg0.slots t 3).cast nbuf0_3)

/-- The rectangle of the column accumulator the point (i, j) reads and rewrites: 1024 entries from the offset on. -/
abbrev colRect (i : grid0.Coords) : Rect S16384 := Rect.unit (s := S16384) (k0_off1 i) S1024.size (k0_off1_inb i)

/-- One point's effect on the column accumulator: inside the rectangle the stored value (the smaller of the old slice
    and the tile's column minima) at the position within the rectangle, outside it the old entry. -/
def colUpd (i : grid0.Coords) (xb yb : Vec F S1024 .f32) (prev : Vec F S16384 .f32) : Vec F S16384 .f32 :=
  fun y => if h : ∀ a, (k0_off1 i) a ≤ (y a).val ∧ (y a).val < (k0_off1 i) a + S1024.size a then
      k0_pay5 xb yb (View.ld prev (colRect i)) (Rect.unitLocal (s := S16384) (off := k0_off1 i) (size := S1024.size) y h)
    else prev y

/-- The first two offsets of a whole-buffer rectangle are zero. -/
theorem hz1 : (![0] : Fin 1 → Nat) = fun _ => 0 := funext fun a => by fin_cases a; rfl

end Cert.KernelIdeal.Body

end
-- ==== Proof.KI.Run.lean ====
/-
  The kernel body run once in each of the three cases its two branches leave over the grid, on whole staging buffers.
  In every case the two input buffers are read and left as found. First point (both resets taken): whatever the two
  accumulator buffers held, the row buffer ends at the tile's row minima folded into +infinity and the column buffer at
  +infinity everywhere but on its slice, which holds the tile's column minima folded into +infinity. Later points with
  j = 0 (only the row reset taken): the row buffer as before, the column buffer at its update of what it held. All other
  points (no reset): both buffers at their updates of what they held. What a partial store leaves is read entry by entry:
  inside the stored rectangle the stored value, outside it the old entry.
-/
import proofs.«145915_j59158879535331_1_alg».proof.Proof.KI.Runs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point: both accumulators are reset before they are read. -/
theorem kernelRun0_A (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S16384 .f32) (harg5 : arg5.IsWhole) (hc0 : cond0_0 i) (hc1 : cond0_1 i)
    (x0 : Vec F S1024 .f32) (x1 : Vec F S1024 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ owns (c : Thread nD τ) arg4 fullShare (k0_pay4 x0 x1 k0_pay2) ∗ owns (c : Thread nD τ) arg5 fullShare (colUpd i x0 x1 k0_pay1)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_cons_self, View.mem_set_unit_zero hz1 inb_S1024_S1024_0 y⟩), View.canon_cons_unit_zero hz1]
      sl_unfold_words
      rw [View.readCov_unit_zero (S := S1024) _ hz1]
      simp only [View.readAt_eq_ld, harg2.read_unread, harg3.read_unread, View.ld_unit_zero (S := S1024) hz1]
    iexists _; isplitr; swap; · iexact H3
    ipureintro
    funext y
    unfold colUpd
    sl_unfold_run_names
    rw [View.read_writes_cons_unit _ _ (k0_off1_inb i) _ _ y rfl]
    simp only [View.readAt_writes_junk_eq_canon, View.read_writes_junk_eq_canon, View.canon_unit_zero (S := S16384) hz1, View.readAt_eq_ld, harg2.read_unread, harg3.read_unread, View.ld_unit_zero (S := S1024) hz1]

set_option maxHeartbeats 1000000 in
/-- A later point with j = 0: the row accumulator is reset, the column accumulator continues from its contents. -/
theorem kernelRun0_C (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S16384 .f32) (harg5 : arg5.IsWhole) (hc0 : ¬cond0_0 i) (hc1 : cond0_1 i)
    (x0 : Vec F S1024 .f32) (x1 : Vec F S1024 .f32) (xo3 : Vec F S16384 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3
            ∗ (iprop(owns (c : Thread nD τ) arg2 fullShare x0 ∗ owns (c : Thread nD τ) arg3 fullShare x1 ∗ owns (c : Thread nD τ) arg4 fullShare (k0_pay4 x0 x1 k0_pay2) ∗ owns (c : Thread nD τ) arg5 fullShare (colUpd i x0 x1 xo3)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_cons_self, View.mem_set_unit_zero hz1 inb_S1024_S1024_0 y⟩), View.canon_cons_unit_zero hz1]
      sl_unfold_words
      rw [View.readCov_unit_zero (S := S1024) _ hz1]
      simp only [View.readAt_eq_ld, harg2.read_unread, harg3.read_unread, View.ld_unit_zero (S := S1024) hz1]
    iexists _; isplitr; swap; · iexact H3
    ipureintro
    funext y
    unfold colUpd
    rw [View.read_writes_cons_unit _ _ (k0_off1_inb i) _ [] y rfl]
    simp only [View.writes_nil, harg5.read_unread, View.readAt_eq_ld, harg2.read_unread, harg3.read_unread, View.ld_unit_zero (S := S1024) hz1]

set_option maxHeartbeats 1000000 in
/-- Every other point: both accumulators continue from their contents. -/
theorem kernelRun0_B (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S16384 .f32) (harg5 : arg5.IsWhole) (hc0 : ¬cond0_0 i) (hc1 : ¬cond0_1 i)
    (x0 : Vec F S1024 .f32) (x1 : Vec F S1024 .f32) (xo2 : Vec F S1024 .f32) (xo3 : Vec F S16384 .f32) :
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ owns (c : Thread nD τ) arg4 fullShare (k0_pay4 x0 x1 xo2) ∗ owns (c : Thread nD τ) arg5 fullShare (colUpd i x0 x1 xo3)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_singleton_self _, View.mem_set_unit_zero hz1 inb_S1024_S1024_0 y⟩), View.canon_unit_zero hz1]
      simp only [View.readAt_eq_ld, harg2.read_unread, harg3.read_unread, harg4.read_unread, View.ld_unit_zero (S := S1024) hz1]
    iexists _; isplitr; swap; · iexact H3
    ipureintro
    funext y
    unfold colUpd
    rw [View.read_writes_cons_unit _ _ (k0_off1_inb i) _ [] y rfl]
    simp only [View.writes_nil, harg5.read_unread, View.readAt_eq_ld, harg2.read_unread, harg3.read_unread, View.ld_unit_zero (S := S1024) hz1]

end Cert.KernelIdeal.Body

end
-- ==== Proof.KI.Outs.lean ====
/-
  What the two accumulators hold after each grid point, by recursion on the point's number t = 16 i + j. The row
  accumulator's block restarts from +infinity whenever j = 0 and otherwise continues from what the point before left;
  the column accumulator restarts from +infinity at the first point only and otherwise continues. Each point folds its
  tile's row minima into the first and its tile's column minima into the 1024 entries of the second that start at 1024 j.
-/
import proofs.«145915_j59158879535331_1_alg».proof.Proof.KI.Runs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The two input blocks at point t, at their literal type. -/
abbrev xblk (c : Dev nD) (t : Fin cfg0.N) : Vec F S1024 .f32 := iblk m c 0 t
abbrev yblk (c : Dev nD) (t : Fin cfg0.N) : Vec F S1024 .f32 := iblk m c 1 t

/-- The row accumulator's block and the whole column accumulator after the body at point n. -/
def outsAt0 (c : Dev nD) : (n : ℕ) → n < cfg0.N → Vec F S1024 .f32 × Vec F S16384 .f32
  | 0, hn => (k0_pay4 (xblk m c ⟨0, hn⟩) (yblk m c ⟨0, hn⟩) k0_pay2,
      colUpd (grid0.coords ⟨0, hn⟩) (xblk m c ⟨0, hn⟩) (yblk m c ⟨0, hn⟩) k0_pay1)
  | n + 1, hn =>
    (if (n + 1) % 16 = 0 then k0_pay4 (xblk m c ⟨n + 1, hn⟩) (yblk m c ⟨n + 1, hn⟩) k0_pay2
      else k0_pay4 (xblk m c ⟨n + 1, hn⟩) (yblk m c ⟨n + 1, hn⟩) (outsAt0 c n (Nat.lt_of_succ_lt hn)).1,
      colUpd (grid0.coords ⟨n + 1, hn⟩) (xblk m c ⟨n + 1, hn⟩) (yblk m c ⟨n + 1, hn⟩) (outsAt0 c n (Nat.lt_of_succ_lt hn)).2)

/-- At a point with j = 0 the row block is the tile's row minima folded into +infinity. -/
theorem row_reset (c : Dev nD) (t : Fin cfg0.N) (h1 : t.val % 16 = 0) :
    (outsAt0 m c t.val t.isLt).1 = k0_pay4 (xblk m c t) (yblk m c t) k0_pay2 := by
  obtain ⟨n, hn⟩ := t
  cases n with
  | zero => rfl
  | succ n => exact (if_pos h1)

/-- At a point with j ≠ 0 it is the tile's row minima folded into what the point before left. -/
theorem row_cont (c : Dev nD) (t : Fin cfg0.N) (h1 : ¬t.val % 16 = 0) :
    (outsAt0 m c t.val t.isLt).1
      = k0_pay4 (xblk m c t) (yblk m c t) (outsAt0 m c (t.val - 1) (Nat.lt_of_le_of_lt (Nat.sub_le _ _) t.isLt)).1 := by
  obtain ⟨n, hn⟩ := t
  cases n with
  | zero => exact absurd (Nat.zero_mod _) h1
  | succ n => exact (if_neg h1)

/-- At the first point the column accumulator is the tile's column minima folded into +infinity on its first 1024
    entries, +infinity elsewhere. -/
theorem col_first (c : Dev nD) (t : Fin cfg0.N) (h0 : t.val = 0) :
    (outsAt0 m c t.val t.isLt).2 = colUpd (grid0.coords t) (xblk m c t) (yblk m c t) k0_pay1 := by
  obtain ⟨n, hn⟩ := t
  cases n with
  | zero => rfl
  | succ n => exact absurd h0 (Nat.succ_ne_zero n)

/-- At every later point it is the point's update of what the point before left. -/
theorem col_cont (c : Dev nD) (t : Fin cfg0.N) (h0 : ¬t.val = 0) :
    (outsAt0 m c t.val t.isLt).2
      = colUpd (grid0.coords t) (xblk m c t) (yblk m c t) (outsAt0 m c (t.val - 1) (Nat.lt_of_le_of_lt (Nat.sub_le _ _) t.isLt)).2 := by
  obtain ⟨n, hn⟩ := t
  cases n with
  | zero => exact absurd rfl h0
  | succ n => rfl

end Cert.KernelIdeal.Body

end
-- ==== Proof.KI.Frame.lean ====
/-
  The frame of the program from the body's three runs. The proof data name what each window's staging buffer holds
  after the body at each point: an input's its block, the two outputs' the running accumulators of the recursion over
  the points. Before the body an input's buffer holds its block whether fetched at the point or not; the row
  accumulator's buffer holds anything at a point with j = 0 (the first point, or the point after a write-back) and
  otherwise what the point before left (it is written back only after j = 15); the column accumulator's buffer holds
  anything at the first point and otherwise what the point before left (it is written back only after the last point).
  So at each point the run of its case applies, and the pipeline's launch gives the whole run: every array of the
  pipeline ends at what the proof data compute, every other buffer at what the closing host operations compute.
-/
import proofs.«145915_j59158879535331_1_alg».proof.Proof.KI.Run
import proofs.«145915_j59158879535331_1_alg».proof.Proof.KI.Outs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point with j = 0 the row accumulator's buffer is fresh: the first point, or the point after a write-back. -/
theorem before0_2_fresh (c : Dev nD) (t : Fin cfg0.N) (h1 : t.val % 16 = 0) (d) : (dats m 0 c).before 2 t d = d := by
  have hN : t.val < 256 := lt_of_lt_of_eq t.isLt (show cfg0.N = 256 from N_0)
  refine Dat.before_out_reset _ 2 rfl t ?_ d
  by_cases h0 : t.val = 0
  · exact Or.inl h0
  · exact Or.inr ⟨h0, (flush0_2 _).mpr (by dsimp only; omega)⟩

/-- At a point with j ≠ 0 it holds what the point before left. -/
theorem before0_2_kept (c : Dev nD) (t : Fin cfg0.N) (h1 : ¬t.val % 16 = 0) (d) :
    (dats m 0 c).before 2 t d = (outsAt0 m c (t.val - 1) (Nat.lt_of_le_of_lt (Nat.sub_le _ _) t.isLt)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- At the first point the column accumulator's buffer is fresh. -/
theorem before0_3_fresh (c : Dev nD) (t : Fin cfg0.N) (h0 : t.val = 0) (d) : (dats m 0 c).before 3 t d = d :=
  Dat.before_out_reset _ 3 rfl t (Or.inl h0) d

/-- At every later point it holds what the point before left. -/
theorem before0_3_kept (c : Dev nD) (t : Fin cfg0.N) (h0 : ¬t.val = 0) (d) :
    (dats m 0 c).before 3 t d = (outsAt0 m c (t.val - 1) (Nat.lt_of_le_of_lt (Nat.sub_le _ _) t.isLt)).2 := by
  have hN : t.val < 256 := lt_of_lt_of_eq t.isLt (show cfg0.N = 256 from N_0)
  rw [Dat.before_out_kept _ 3 rfl t h0 (Bool.eq_false_iff.mpr fun h => by have := (flush0_3 _).mp h; dsimp only at this; omega)
    (fun _ => rfl) (fun _ _ => rfl)]
  dsimp only [dats]

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1200000 in
/-- The body at any point: the point's case is read off its number, the buffers hold what the case's run asks, and the
    run leaves what the recursion names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 256 := lt_of_lt_of_eq t.isLt (show cfg0.N = 256 from N_0)
  by_cases h0 : t.val % 256 = 0
  · have h0' : t.val = 0 := by omega
    have h1 : t.val % 16 = 0 := by omega
    rw [row_reset m c t h1, col_first m c t h0']
    simp only [before0_2_fresh m c t h1, before0_3_fresh m c t h0']
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) ((hcond0_1 t).mpr h1) (iblk m c 0 t) (iblk m c 1 t)) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have h0' : ¬t.val = 0 := by omega
    by_cases h1 : t.val % 16 = 0
    · rw [row_reset m c t h1, col_cont m c t h0']
      simp only [before0_2_fresh m c t h1, before0_3_kept m c t h0']
      iintro ⟨HΦ, Ho, ⟨%d0, H0⟩, ⟨%d1, H1⟩, ⟨%d2, H2⟩, ⟨%d3, H3⟩⟩
      iapply ((kernelRun0_C c (grid0.coords t) _ _ _ _ _ _ _ _ (fun h => h0 ((hcond0_0 t).mp h)) ((hcond0_1 t).mpr h1) (iblk m c 0 t) (iblk m c 1 t) _) Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [row_cont m c t h1, col_cont m c t h0']
      simp only [before0_2_kept m c t h1, before0_3_kept m c t h0']
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) (fun h => h1 ((hcond0_1 t).mp h)) (iblk m c 0 t) (iblk m c 1 t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: every weakly fair execution terminates, every array of the pipeline ends at what the proof data compute
    and every other unscoped buffer at what the closing host operations compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.PayValue.lean ====
/-
  What the kernel body's stored values are at the extended reals, element by element: the two resets are +infinity at
  every element; the value stored into the row accumulator at row r is the smaller of what the accumulator held there and
  the minimum over the tile's 1024 columns c of |x r - y c|; the value stored into the column accumulator's slice at
  column c is the smaller of what the slice held there and the minimum over the tile's 1024 rows r of |x r - y c|.
  Each minimum is carried by its universal property.
-/
import proofs.«145915_j59158879535331_1_alg».proof.Proof.Spec
import proofs.«145915_j59158879535331_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Idealize.ShloMosaic Idealize.ShloMosaic.ValueIdx Cert.KernelIdeal Cert.KernelIdeal.Gen Cert.Chamfer

/-! ## The start value -/

/-- The f32 word with sign 0, every exponent bit set and no fraction bit denotes +infinity. -/
theorem ofBits_inf : Ideal.ofBits .f32 0x7F800000#32 = (⊤ : EReal) := by
  simp [Ideal.ofBits, Ideal.ieee]

/-- The reset of the column accumulator is +infinity everywhere. -/
theorem pay1_apply (j : S16384.Idx) : k0_pay1 (F := Ideal) j = (⊤ : EReal) := by
  show Ideal.ofBits .f32 0x7F800000#32 = ⊤
  exact ofBits_inf

/-- The reset of the row accumulator is +infinity everywhere. -/
theorem pay2_apply (j : S1024.Idx) : k0_pay2 (F := Ideal) j = (⊤ : EReal) := by
  show Ideal.ofBits .f32 0x7F800000#32 = ⊤
  exact ofBits_inf

/-! ## A column made of a vector, and a column copied across a matrix -/

section Layout
variable {α : Type}

/-- A vector of length a viewed as an a × 1 matrix reads, at (i, u), the vector at i: the row-major position of (i, u)
    is i * 1 + u with u = 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 matrix copied across b columns reads, at (p, c), the one column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The tile of distances -/

/-- The tile of distances at (r, c) is |x r - y c|. -/
theorem pay3_apply (xb yb : Vec Ideal S1024 .f32) (r c : Fin 1024) :
    k0_pay3 (F := Ideal) xb yb (ix2 r c) = dist (xb (ix1 r)) (yb (ix1 c)) := by
  have hx : broadcastTo S1024x1024 (shapeCast S1024x1 xb shapeCasts_S1024_S1024x1) broadcasts_S1024x1_S1024x1024 (ix2 r c)
      = xb (ix1 r) :=
    (broadcastTo_a1_ab_apply _ _ r c).trans (shapeCast_a_a1_apply _ _ r 0)
  have hy : broadcastTo S1024x1024 (shapeCast S1x1024 yb shapeCasts_S1024_S1x1024) broadcasts_S1x1024_S1024x1024 (ix2 r c)
      = yb (ix1 c) :=
    (broadcastTo_1b_ab_apply _ _ r c).trans (shapeCast_a_1a_apply _ _ 0 c)
  unfold Chamfer.dist
  rw [← hx, ← hy]
  rfl

/-! ## A minimum along one axis, by its universal property -/

/-- A minimum taken along one axis is, at each remaining index j, the fold of min from the start value over that
    axis's coordinates k of the source at j with k put back in. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

/-- So z is below it exactly when z is below the start value and below every term. -/
theorem le_multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) (z : EReal) :
    z ≤ multiReduction .minimumf [a] t src acc h hφ hacc j
      ↔ z ≤ Ideal.ofBits φ acc ∧ ∀ k : Fin (s.size a), z ≤ src (h.lift j k) := by
  rw [multiReduction_minimumf_single, Finset.le_fold_min]
  exact and_congr_right fun _ => ⟨fun hk k => hk k (Finset.mem_univ k), fun hk k _ => hk k⟩

/-- Row r with column c put back on axis 1 is the index (r, c). -/
theorem lift_row (r c : Fin 1024) : reduces_S1024x1024_S1024.lift (ix1 r) c = ix2 r c := by
  funext d
  match d with
  | ⟨0, _⟩ => rfl
  | ⟨1, _⟩ => rfl

/-- Column c with row r put back on axis 0 is the index (r, c). -/
theorem lift_col (r c : Fin 1024) : reduces_S1024x1024_S1024_2.lift (ix1 c) r = ix2 r c := by
  funext d
  match d with
  | ⟨0, _⟩ => rfl
  | ⟨1, _⟩ => rfl

/-! ## The two accumulators' new values -/

/-- The row accumulator's new value at row r: below it is exactly below the old value and below every |x r - y c|. -/
theorem pay4_le (xb yb prev : Vec Ideal S1024 .f32) (r : Fin 1024) (z : EReal) :
    z ≤ k0_pay4 (F := Ideal) xb yb prev (ix1 r)
      ↔ z ≤ prev (ix1 r) ∧ ∀ c : Fin 1024, z ≤ dist (xb (ix1 r)) (yb (ix1 c)) := by
  show z ≤ min (shapeCast S1024 prev shapeCasts_S1024_S1024 (ix1 r))
      (multiReduction .minimumf [1] S1024 (k0_pay3 xb yb) 0x7F800000#32 reduces_S1024x1024_S1024 (.inl rfl) rfl (ix1 r)) ↔ _
  refine le_min_iff.trans (and_congr (by rw [shapeCast_self]) ?_)
  refine (le_multiReduction_minimumf_single (k0_pay3 xb yb) _ reduces_S1024x1024_S1024 _ _ (ix1 r) z).trans ?_
  rw [ofBits_inf]
  have key : ∀ c : Fin 1024,
      k0_pay3 xb yb (reduces_S1024x1024_S1024.lift (ix1 r) c) = dist (xb (ix1 r)) (yb (ix1 c)) :=
    fun c => by rw [lift_row, pay3_apply]
  exact ⟨fun h c => (h.2 c).trans_eq (key c), fun h => ⟨le_top, fun c => (h c).trans_eq (key c).symm⟩⟩

/-- The column accumulator's new value at column c: below it is exactly below the old value and below every |x r - y c|. -/
theorem pay5_le (xb yb prev : Vec Ideal S1024 .f32) (c : Fin 1024) (z : EReal) :
    z ≤ k0_pay5 (F := Ideal) xb yb prev (ix1 c)
      ↔ z ≤ prev (ix1 c) ∧ ∀ r : Fin 1024, z ≤ dist (xb (ix1 r)) (yb (ix1 c)) := by
  show z ≤ min (shapeCast S1024 prev shapeCasts_S1024_S1024 (ix1 c))
      (multiReduction .minimumf [0] S1024 (k0_pay3 xb yb) 0x7F800000#32 reduces_S1024x1024_S1024_2 (.inl rfl) rfl (ix1 c)) ↔ _
  refine le_min_iff.trans (and_congr (by rw [shapeCast_self]) ?_)
  refine (le_multiReduction_minimumf_single (k0_pay3 xb yb) _ reduces_S1024x1024_S1024_2 _ _ (ix1 c) z).trans ?_
  rw [ofBits_inf]
  have key : ∀ r : Fin 1024,
      k0_pay3 xb yb (reduces_S1024x1024_S1024_2.lift (ix1 c) r) = dist (xb (ix1 r)) (yb (ix1 c)) :=
    fun r => by rw [lift_col, pay3_apply]
  exact ⟨fun h r => (h.2 r).trans_eq (key r), fun h => ⟨le_top, fun r => (h r).trans_eq (key r).symm⟩⟩

end Cert.KernelIdeal.PayValue

end
-- ==== Proof.KI.Value.lean ====
/-
  What the two accumulators hold after each grid point, as minima. Number the points t = 16 i + j. The input blocks
  at point t are rows 1024 i … 1024 i + 1023 of x and entries 1024 j … 1024 j + 1023 of y. After point t the row
  accumulator's block holds, at row r, the minimum of |x (1024 i + r) - y q| over the columns q seen so far in this row
  of tiles, q < 1024 (j + 1); the column accumulator holds, at column q, the minimum of |x p - y q| over the rows p of
  the tiles (i', j') visited so far with j' the tile of q, that is 16 (p / 1024) + q / 1024 ≤ t (+infinity when there
  is none). Both by induction on the point, each minimum carried by its universal property.
-/
import proofs.«145915_j59158879535331_1_alg».proof.Proof.Spec
import proofs.«145915_j59158879535331_1_alg».proof.Proof.KI.Outs
import proofs.«145915_j59158879535331_1_alg».proof.Proof.KI.PayValue

set_option maxRecDepth 16384

noncomputable section

namespace Cert.KernelIdeal.BodyValue

open Idealize.ShloMosaic Idealize.ShloMosaic.TcCoe Idealize.ShloMosaic.ValueIdx Idealize.SL.Sem
open Cert.KernelIdeal Cert.KernelIdeal.Gen Cert.KernelIdeal.Body Cert.KernelIdeal.PayValue Cert.Chamfer

variable (m : (ℓ : Loc nD τ sig) → Buf (Elt Ideal) ℓ)

/-- The two argument arrays on core c. -/
abbrev xarr (c : Dev nD) : FVec Ideal S16384 .f32 := m ((c.tc : Thread nD τ).loc main_arg0)
abbrev yarr (c : Dev nD) : FVec Ideal S16384 .f32 := m ((c.tc : Thread nD τ).loc main_arg1)

/-- Row r of the tiles' row i = t / 16, as a row of x. -/
def rowIdx (t : Fin cfg0.N) (r : Fin 1024) : Fin 16384 :=
  ⟨1024 * (t.val / 16) + r.val, by have := t.isLt; have hN : cfg0.N = 256 := N_0; omega⟩

/-- Column k of the tiles' column j = t % 16, as an entry of y. -/
def colIdx (t : Fin cfg0.N) (k : Fin 1024) : Fin 16384 :=
  ⟨1024 * (t.val % 16) + k.val, by omega⟩

/-! ## The input blocks -/

/-- The first window's index map on the grid: the outer coordinate i = t / 16. -/
theorem idx0 : ∀ t : Fin cfg0.N, win0_0.index t 0 = t.val / 16 :=
  (by decide +kernel : ∀ t : Fin grid0.N, win0_0.index t 0 = t.val / 16)

/-- The second window's index map on the grid: the inner coordinate j = t % 16. -/
theorem idx1 : ∀ t : Fin cfg0.N, win0_1.index t 0 = t.val % 16 :=
  (by decide +kernel : ∀ t : Fin grid0.N, win0_1.index t 0 = t.val % 16)

/-- The first input block at point t is rows 1024 i … of x. -/
theorem xblk_apply (c : Dev nD) (t : Fin cfg0.N) (r : Fin 1024) :
    xblk m c t (ix1 r) = xarr m c (ix1 (rowIdx t r)) := by
  unfold xblk iblk
  rw [View.read_apply]
  show V m c main_arg0 _ = m (c.tc.loc main_arg0) _
  unfold V
  congr 1
  funext a
  apply Fin.ext
  match a with
  | ⟨0, _⟩ =>
    show win0_0.index t 0 * 1024 + 1 * r.val = 1024 * (t.val / 16) + r.val
    rw [idx0 t]; omega

/-- The second input block at point t is entries 1024 j … of y. -/
theorem yblk_apply (c : Dev nD) (t : Fin cfg0.N) (k : Fin 1024) :
    yblk m c t (ix1 k) = yarr m c (ix1 (colIdx t k)) := by
  unfold yblk iblk
  rw [View.read_apply]
  show V m c main_arg1 _ = m (c.tc.loc main_arg1) _
  unfold V
  congr 1
  funext a
  apply Fin.ext
  match a with
  | ⟨0, _⟩ =>
    show win0_1.index t 0 * 1024 + 1 * k.val = 1024 * (t.val % 16) + k.val
    rw [idx1 t]; omega

/-! ## Ranges of indices -/

/-- The entries of the tile's block of y are exactly the q in the j-th run of 1024. -/
theorem forall_colIdx (t : Fin cfg0.N) (P : Fin 16384 → Prop) :
    (∀ k : Fin 1024, P (colIdx t k)) ↔ ∀ q : Fin 16384, q.val / 1024 = t.val % 16 → P q := by
  constructor
  · intro h q hq
    have e : colIdx t ⟨q.val - 1024 * (t.val % 16), by have := q.isLt; omega⟩ = q := Fin.ext (by
      show 1024 * (t.val % 16) + (q.val - 1024 * (t.val % 16)) = q.val
      omega)
    exact e ▸ h _
  · intro h k
    exact h _ (by show (1024 * (t.val % 16) + k.val) / 1024 = t.val % 16; have := k.isLt; omega)

/-- The rows of the tile's block of x are exactly the p in the i-th run of 1024. -/
theorem forall_rowIdx (t : Fin cfg0.N) (P : Fin 16384 → Prop) :
    (∀ r : Fin 1024, P (rowIdx t r)) ↔ ∀ p : Fin 16384, p.val / 1024 = t.val / 16 → P p := by
  constructor
  · intro h p hp
    have e : rowIdx t ⟨p.val - 1024 * (t.val / 16), by have := p.isLt; omega⟩ = p := Fin.ext (by
      show 1024 * (t.val / 16) + (p.val - 1024 * (t.val / 16)) = p.val
      omega)
    exact e ▸ h _
  · intro h r
    exact h _ (by show (1024 * (t.val / 16) + r.val) / 1024 = t.val / 16; have := r.isLt; omega)

/-- The first j + 1 runs of 1024 are the first j runs and the j-th. -/
theorem forall_lt_succ (j : ℕ) (P : Fin 16384 → Prop) :
    (∀ q : Fin 16384, q.val < 1024 * (j + 1) → P q)
      ↔ (∀ q : Fin 16384, q.val < 1024 * j → P q) ∧ ∀ q : Fin 16384, q.val / 1024 = j → P q := by
  constructor
  · intro h
    exact ⟨fun q hq => h q (by omega), fun q hq => h q (by omega)⟩
  · rintro ⟨h1, h2⟩ q hq
    by_cases hlt : q.val < 1024 * j
    · exact h1 q hlt
    · exact h2 q (by omega)

/-! ## The row accumulator -/

/-- One point's effect on the row accumulator at row r: below the new value is exactly below the old value and below
    |x (1024 i + r) - y q| for every q in the j-th run of 1024. -/
theorem row_step (c : Dev nD) (t : Fin cfg0.N) (prev : Vec Ideal S1024 .f32) (r : Fin 1024) (z : EReal) :
    z ≤ k0_pay4 (xblk m c t) (yblk m c t) prev (ix1 r)
      ↔ z ≤ prev (ix1 r) ∧ ∀ q : Fin 16384, q.val / 1024 = t.val % 16 →
          z ≤ Chamfer.dist (xarr m c (ix1 (rowIdx t r))) (yarr m c (ix1 q)) := by
  refine (pay4_le _ _ _ r z).trans (and_congr_right fun _ => ?_)
  refine Iff.trans ?_ (forall_colIdx t fun q => z ≤ Chamfer.dist (xarr m c (ix1 (rowIdx t r))) (yarr m c (ix1 q)))
  exact forall_congr' fun k => by rw [xblk_apply, yblk_apply]

/-- At a point with j = 0 the row accumulator holds the minimum over the first run of 1024 columns. -/
theorem row_inv_reset (c : Dev nD) (n : ℕ) (hn : n < cfg0.N) (h1 : n % 16 = 0) (r : Fin 1024) (z : EReal) :
    z ≤ (outsAt0 m c n hn).1 (ix1 r)
      ↔ ∀ q : Fin 16384, q.val < 1024 * (n % 16 + 1) →
          z ≤ Chamfer.dist (xarr m c (ix1 (rowIdx ⟨n, hn⟩ r))) (yarr m c (ix1 q)) := by
  have e : (outsAt0 m c n hn).1 = k0_pay4 (xblk m c ⟨n, hn⟩) (yblk m c ⟨n, hn⟩) (k0_pay2 (F := Ideal)) :=
    row_reset m c ⟨n, hn⟩ h1
  rw [e]
  refine (row_step m c ⟨n, hn⟩ _ r z).trans ?_
  refine Iff.trans ?_ (forall_lt_succ (n % 16) fun q =>
    z ≤ Chamfer.dist (xarr m c (ix1 (rowIdx ⟨n, hn⟩ r))) (yarr m c (ix1 q))).symm
  refine and_congr_left' ⟨fun _ q hq => absurd hq (by omega), fun _ => ?_⟩
  rw [pay2_apply]; exact le_top

/-- The row accumulator after point n, for every n below the number of points: by induction on n, restarting where
    j = 0 and otherwise adding the j-th run of columns to the j runs before it (the row of tiles is the same as at
    the point before). -/
theorem row_inv_aux (c : Dev nD) : ∀ (n : ℕ) (hn : n < cfg0.N) (r : Fin 1024) (z : EReal),
    z ≤ (outsAt0 m c n hn).1 (ix1 r)
      ↔ ∀ q : Fin 16384, q.val < 1024 * (n % 16 + 1) →
          z ≤ Chamfer.dist (xarr m c (ix1 (rowIdx ⟨n, hn⟩ r))) (yarr m c (ix1 q)) := by
  intro n
  induction n with
  | zero => exact fun hn r z => row_inv_reset m c 0 hn rfl r z
  | succ k ih =>
    intro hn r z
    by_cases h1 : (k + 1) % 16 = 0
    · exact row_inv_reset m c (k + 1) hn h1 r z
    · have e : (outsAt0 m c (k + 1) hn).1
          = k0_pay4 (xblk m c ⟨k + 1, hn⟩) (yblk m c ⟨k + 1, hn⟩) (outsAt0 m c k (Nat.lt_of_succ_lt hn)).1 :=
        row_cont m c ⟨k + 1, hn⟩ h1
      have hrow : rowIdx ⟨k, Nat.lt_of_succ_lt hn⟩ r = rowIdx ⟨k + 1, hn⟩ r := Fin.ext (by
        show 1024 * (k / 16) + r.val = 1024 * ((k + 1) / 16) + r.val
        omega)
      have hj : k % 16 + 1 = (k + 1) % 16 := by omega
      rw [e]
      refine (row_step m c ⟨k + 1, hn⟩ _ r z).trans ?_
      refine (and_congr_left' (ih (Nat.lt_of_succ_lt hn) r z)).trans ?_
      rw [hrow, hj]
      exact (forall_lt_succ _ _).symm

/-- The row accumulator after point t: the minimum over the columns seen so far in this row of tiles. -/
theorem row_inv (c : Dev nD) (t : Fin cfg0.N) (r : Fin 1024) (z : EReal) :
    z ≤ (outsAt0 m c t.val t.isLt).1 (ix1 r)
      ↔ ∀ q : Fin 16384, q.val < 1024 * (t.val % 16 + 1) →
          z ≤ Chamfer.dist (xarr m c (ix1 (rowIdx t r))) (yarr m c (ix1 q)) := by
  exact row_inv_aux m c t.val t.isLt r z

/-! ## The column accumulator -/

/-- Entry q lies in the slice of the column accumulator that point t rewrites exactly when q is in the j-th run. -/
theorem mem_slice_iff (t : Fin cfg0.N) (q : Fin 16384) :
    (∀ a, k0_off1 (grid0.coords t) a ≤ ((ix1 q : S16384.Idx) a).val
        ∧ ((ix1 q : S16384.Idx) a).val < k0_off1 (grid0.coords t) a + S1024.size a)
      ↔ q.val / 1024 = t.val % 16 := by
  rw [off_eq t]
  refine Fin.forall_fin_one.trans ?_
  show 1024 * (t.val % 16) ≤ q.val ∧ q.val < 1024 * (t.val % 16) + 1024 ↔ _
  omega

/-- One point's effect on the column accumulator at entry q: below the new value is exactly below the old value and,
    when q is in the j-th run of 1024, below |x p - y q| for every p in the i-th run. -/
theorem col_step (c : Dev nD) (t : Fin cfg0.N) (prev : Vec Ideal S16384 .f32) (q : Fin 16384) (z : EReal) :
    z ≤ colUpd (grid0.coords t) (xblk m c t) (yblk m c t) prev (ix1 q)
      ↔ z ≤ prev (ix1 q) ∧ (q.val / 1024 = t.val % 16 → ∀ p : Fin 16384, p.val / 1024 = t.val / 16 →
          z ≤ Chamfer.dist (xarr m c (ix1 p)) (yarr m c (ix1 q))) := by
  unfold colUpd
  split
  · next h =>
    have hq : q.val / 1024 = t.val % 16 := (mem_slice_iff t q).mp h
    have hk : q.val - 1024 * (t.val % 16) < 1024 := by have := q.isLt; omega
    have hloc : Rect.unitLocal (s := S16384) (off := k0_off1 (grid0.coords t)) (size := S1024.size) (ix1 q) h
        = ix1 (⟨q.val - 1024 * (t.val % 16), hk⟩ : Fin 1024) := by
      funext a
      match a with
      | ⟨0, _⟩ =>
        refine Fin.ext ?_
        show q.val - k0_off1 (grid0.coords t) 0 = q.val - 1024 * (t.val % 16)
        rw [off_eq t]; rfl
    have hprev : View.ld prev (colRect (grid0.coords t)) (ix1 (⟨q.val - 1024 * (t.val % 16), hk⟩ : Fin 1024))
        = prev (ix1 q) := by
      show prev _ = prev _
      congr 1
      funext a
      match a with
      | ⟨0, _⟩ =>
        refine Fin.ext ?_
        show k0_off1 (grid0.coords t) 0 + 1 * (q.val - 1024 * (t.val % 16)) = q.val
        rw [off_eq t]
        show 1024 * (t.val % 16) + 1 * (q.val - 1024 * (t.val % 16)) = q.val
        omega
    have hcol : colIdx t ⟨q.val - 1024 * (t.val % 16), hk⟩ = q := Fin.ext (by
      show 1024 * (t.val % 16) + (q.val - 1024 * (t.val % 16)) = q.val
      omega)
    rw [hloc]
    refine (pay5_le _ _ _ _ z).trans ?_
    rw [hprev]
    refine and_congr_right fun _ => ?_
    refine Iff.trans ?_ ((forall_rowIdx t fun p => z ≤ Chamfer.dist (xarr m c (ix1 p)) (yarr m c (ix1 q))).trans
      ⟨fun hp _ => hp, fun hp => hp hq⟩)
    exact forall_congr' fun r => by rw [xblk_apply, yblk_apply, hcol]
  · next h =>
    have hq : ¬q.val / 1024 = t.val % 16 := fun hq => h ((mem_slice_iff t q).mpr hq)
    exact ⟨fun hz => ⟨hz, fun hq' => absurd hq' hq⟩, fun hz => hz.1⟩

/-- The tiles numbered at most n + 1 that lie over q's run are those numbered at most n and, when q is in the run of
    point n + 1, the tile of that point. -/
theorem forall_le_succ (n : ℕ) (q : Fin 16384) (P : Fin 16384 → Prop) :
    (∀ p : Fin 16384, 16 * (p.val / 1024) + q.val / 1024 ≤ n + 1 → P p)
      ↔ (∀ p : Fin 16384, 16 * (p.val / 1024) + q.val / 1024 ≤ n → P p)
        ∧ (q.val / 1024 = (n + 1) % 16 → ∀ p : Fin 16384, p.val / 1024 = (n + 1) / 16 → P p) := by
  have hq := q.isLt
  constructor
  · intro h
    exact ⟨fun p hp => h p (by omega), fun hq' p hp => h p (by omega)⟩
  · rintro ⟨h1, h2⟩ p hp
    by_cases hle : 16 * (p.val / 1024) + q.val / 1024 ≤ n
    · exact h1 p hle
    · exact h2 (by omega) p (by omega)

/-- The column accumulator after point n, for every n below the number of points: by induction on n. -/
theorem col_inv_aux (c : Dev nD) : ∀ (n : ℕ) (hn : n < cfg0.N) (q : Fin 16384) (z : EReal),
    z ≤ (outsAt0 m c n hn).2 (ix1 q)
      ↔ ∀ p : Fin 16384, 16 * (p.val / 1024) + q.val / 1024 ≤ n →
          z ≤ Chamfer.dist (xarr m c (ix1 p)) (yarr m c (ix1 q)) := by
  intro n
  induction n with
  | zero =>
    intro hn q z
    have e := col_first m c ⟨0, hn⟩ rfl
    rw [e]
    refine (col_step m c ⟨0, hn⟩ _ q z).trans ?_
    show z ≤ _ ∧ (q.val / 1024 = 0 % 16 → ∀ p : Fin 16384, p.val / 1024 = 0 / 16 → _) ↔ _
    constructor
    · rintro ⟨_, h⟩ p hp
      exact h (by omega) p (by omega)
    · intro h
      exact ⟨by rw [pay1_apply]; exact le_top, fun _ p hp => h p (by omega)⟩
  | succ k ih =>
    intro hn q z
    have e : (outsAt0 m c (k + 1) hn).2
        = colUpd (grid0.coords ⟨k + 1, hn⟩) (xblk m c ⟨k + 1, hn⟩) (yblk m c ⟨k + 1, hn⟩)
            (outsAt0 m c k (Nat.lt_of_succ_lt hn)).2 :=
      col_cont m c ⟨k + 1, hn⟩ (Nat.succ_ne_zero k)
    rw [e]
    refine (col_step m c ⟨k + 1, hn⟩ _ q z).trans ?_
    refine (and_congr_left' (ih (Nat.lt_of_succ_lt hn) q z)).trans ?_
    exact (forall_le_succ k q _).symm

/-- The column accumulator after point t: the minimum over the rows of the tiles visited so far in q's column of tiles. -/
theorem col_inv (c : Dev nD) (t : Fin cfg0.N) (q : Fin 16384) (z : EReal) :
    z ≤ (outsAt0 m c t.val t.isLt).2 (ix1 q)
      ↔ ∀ p : Fin 16384, 16 * (p.val / 1024) + q.val / 1024 ≤ t.val →
          z ≤ Chamfer.dist (xarr m c (ix1 p)) (yarr m c (ix1 q)) := by
  exact col_inv_aux m c t.val t.isLt q z

end Cert.KernelIdeal.BodyValue

end
-- ==== Proof.KI.Final.lean ====
/-
  The kernel's run at the extended reals, read as values. The row accumulator's block is written back after the last
  column tile (points 16 i + 15), when it holds the minimum over all 16384 columns, so the first result array is the
  array of row minima; the column accumulator is written back once, after the last point, when every tile has been
  visited, so the second result array is the array of column minima. The closing host operations then compute the
  specification's closing scalar function of the two arrays.
-/
import proofs.«145915_j59158879535331_1_alg».proof.Proof.Spec
import proofs.«145915_j59158879535331_1_alg».proof.Proof.KI.Frame
import proofs.«145915_j59158879535331_1_alg».proof.Proof.KI.Value
import Idealize.ShloMosaic.Lib.Pipeline.Value
import Idealize.ShloMosaic.Lib.StableHlo.Run

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.KernelIdeal.BodyValue Cert.Chamfer

variable (m : (ℓ : Loc nD τ sig) → Buf (Elt Ideal) ℓ) (ρ : Dev nD → PrngReg)

/-- The two result arrays of the pipeline after the run. -/
def Rk (c : Dev nD) : FVec Ideal S16384 .f32 := (dats m 0 c).arrAt 2 cfg0.N
def Ck (c : Dev nD) : FVec Ideal S16384 .f32 := (dats m 0 c).arrAt 3 cfg0.N

/-- Window 2's block index at point t = 16 i + j is the tile row i. -/
theorem idx2 : ∀ t : Fin cfg0.N, (cfg0.win 2).index t 0 = t.val / 16 :=
  (by decide +kernel : ∀ t : Fin grid0.N, win0_2.index t 0 = t.val / 16)

/-- Window 3's block index is 0 at every point: its block is the whole array. -/
theorem idx3 : ∀ t : Fin cfg0.N, (cfg0.win 3).index t 0 = 0 :=
  (by decide +kernel : ∀ t : Fin grid0.N, win0_3.index t 0 = 0)

/-- Entry r of window 2's block at point t sits in the array at row 1024 (t / 16) + r. -/
theorem emb2 (t : Fin cfg0.N) (r : Fin 1024) : ((cfg0.win 2).blk t).view.emb (ix1 r) = ix1 (rowIdx t r) := by
  funext a
  match a with
  | ⟨0, _⟩ =>
    apply Fin.ext
    show (((cfg0.win 2).rect t).emb (ix1 r) 0 : Nat) = _
    rw [Pipeline.Window.rect_emb_val, idx2]
    show t.val / 16 * 1024 + r.val = 1024 * (t.val / 16) + r.val
    omega

/-- Entry q of window 3's block sits in the array at q. -/
theorem emb3 (t : Fin cfg0.N) (q : Fin 16384) : ((cfg0.win 3).blk t).view.emb (ix1 q) = ix1 q := by
  funext a
  match a with
  | ⟨0, _⟩ =>
    apply Fin.ext
    show (((cfg0.win 3).rect t).emb (ix1 q) 0 : Nat) = _
    rw [Pipeline.Window.rect_emb_val, idx3]
    show 0 * 16384 + q.val = q.val
    omega

/-- The value v at row i is the greatest lower bound of |x i - y q| over all q. -/
def PRow (c : Dev nD) : S16384.Idx → EReal → Prop :=
  fun i v => ∀ z : EReal, z ≤ v ↔ ∀ q : Fin 16384, z ≤ dist (xarr m c i) (yarr m c (ix1 q))

/-- The value v at column i is the greatest lower bound of |x p - y i| over all p. -/
def PCol (c : Dev nD) : S16384.Idx → EReal → Prop :=
  fun i v => ∀ z : EReal, z ≤ v ↔ ∀ p : Fin 16384, z ≤ dist (xarr m c (ix1 p)) (yarr m c i)

/-- The first is the array of row minima. -/
theorem Rk_isRowMin (c : Dev nD) : IsRowMin (xarr m c) (yarr m c) (Rk m c) := by
  intro p z
  have hN : cfg0.N = 256 := N_0
  -- every element written back has the property, and the written blocks cover the array
  refine (dats m 0 c).arrAt_forall_of_cover 2 (PRow m c) ?hP ?hcover (ix1 p) z
  case hP =>
    -- a write-back happens after the last column tile, j = 15, when all 16384 columns have been seen
    intro t hf y
    have h15 : t.val % 16 = 15 := (flush0_2 t).mp hf
    rw [cast_eq]
    obtain ⟨r, rfl⟩ : ∃ r : Fin 1024, y = ix1 r := ⟨y 0, eq_ix1 (n := 1024) y⟩
    show PRow m c _ ((dats m 0 c).after 2 t (ix1 r))
    rw [after0_2, emb2]
    intro z
    rw [row_inv m c t r z]
    exact ⟨fun h q => h q (by have := q.isLt; omega), fun h q _ => h q⟩
  case hcover =>
    -- row p lies in the block written back at point 16 (p / 1024) + 15, at entry p % 1024
    intro i
    obtain ⟨p, rfl⟩ : ∃ p : Fin 16384, i = ix1 p := ⟨i 0, eq_ix1 (n := 16384) i⟩
    have hp := p.isLt
    let t : Fin cfg0.N := ⟨16 * (p.val / 1024) + 15, by omega⟩
    refine ⟨t, (flush0_2 t).mpr (by show (16 * (p.val / 1024) + 15) % 16 = 15; omega), ?_⟩
    have e : ix1 p = ((cfg0.win 2).blk t).view.emb (ix1 ⟨p.val % 1024, Nat.mod_lt _ (by decide)⟩) := by
      rw [emb2]; congr 1; apply Fin.ext
      show p.val = 1024 * ((16 * (p.val / 1024) + 15) / 16) + p.val % 1024
      omega
    rw [e]; exact View.emb_mem_set _ _

/-- The second is the array of column minima. -/
theorem Ck_isColMin (c : Dev nD) : IsColMin (xarr m c) (yarr m c) (Ck m c) := by
  intro q z
  have hN : cfg0.N = 256 := N_0
  refine (dats m 0 c).arrAt_forall_of_cover 3 (PCol m c) ?hP ?hcover (ix1 q) z
  case hP =>
    -- the one write-back is after the last point, 255, when every tile (i, j) has been visited
    intro t hf y
    have h255 : t.val % 256 = 255 := (flush0_3 t).mp hf
    have ht := t.isLt
    rw [cast_eq]
    obtain ⟨q, rfl⟩ : ∃ q : Fin 16384, y = ix1 q := ⟨y 0, eq_ix1 (n := 16384) y⟩
    show PCol m c _ ((dats m 0 c).after 3 t (ix1 q))
    rw [after0_3, emb3]
    intro z
    rw [col_inv m c t q z]
    exact ⟨fun h p => h p (by have := p.isLt; have := q.isLt; omega), fun h p _ => h p⟩
  case hcover =>
    -- that write-back's block is the whole array
    intro i
    obtain ⟨q, rfl⟩ : ∃ q : Fin 16384, i = ix1 q := ⟨i 0, eq_ix1 (n := 16384) i⟩
    let t : Fin cfg0.N := ⟨255, by omega⟩
    refine ⟨t, (flush0_3 t).mpr rfl, ?_⟩
    have e : ix1 q = ((cfg0.win 3).blk t).view.emb (ix1 q) := (emb3 t q).symm
    rw [e]; exact View.emb_mem_set _ _

/-- The closing host operations compute the closing scalar function of the two arrays. -/
theorem tail_eq (c : Dev nD) :
    Pipeline.afterTail₀ cfgs (dats m) 0 (V0 m) [hostOps1] c main_v7
      = tail reducesTo_S16384_S_d0 h_S_ (Rk m c) (Ck m c) := by
  unfold Pipeline.afterTail₀
  show StableHlo.after hostOps1 _ (Proc.devRef .tc main_v7) = _
  after_results
  -- the closing operations read the two result arrays as the pipeline left them
  have e2 : Pipeline.withArrays (cfgs 0).spec c (V0 m c) (fun w => (dats m 0 c).arrAt w (cfgs 0).N) (Proc.devRef .tc main_v0_0) = Rk m c :=
    Pipeline.withArrays_arr spec0 launch0.win.arr_inj c _ _ 2
  have e3 : Pipeline.withArrays (cfgs 0).spec c (V0 m c) (fun w => (dats m 0 c).arrAt w (cfgs 0).N) (Proc.devRef .tc main_v0_1) = Ck m c :=
    Pipeline.withArrays_arr spec0 launch0.win.arr_inj c _ _ 3
  rw [e2, e3]
  rfl

/-- The result buffer is unscoped and is no window's array. -/
theorem v7_rest : main_v7 ∈ Pipeline.restRefs sig (cfgs 0).spec :=
  Pipeline.mem_restRefs_of main_v7 rfl (by decide)

/-- The kernel's run: the result is that function of the two arrays of minima, the arguments unchanged. -/
theorem run : θ_run (defs (F := Ideal)) (onTc (τ := τ) (main (F := Ideal))) ⟨m, fun _ => 0, ρ⟩ fun r => ∀ c : Dev nD,
      r.2.mem ((c.tc : Thread nD τ).loc main_v7) = tail reducesTo_S16384_S_d0 h_S_ (Rk m c) (Ck m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run (defs (F := Ideal)) _ _).mono (fun _ h c => ⟨((h c).2 main_v7 v7_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main (F := Ideal) m ρ)

end Cert.KernelIdeal.Final

end
-- ==== Proof.RefValue.lean ====
/-
  The reference at the extended reals. Its matrix of distances at (p, q) is |x p - y q|; its first minimum-reduce, along
  the columns from +infinity, is the array of row minima of the specification and its second, along the rows, the array
  of column minima (each by the universal property of a minimum over one axis); the rest of the program is the
  specification's closing scalar function of those two arrays. So the reference's run ends with that function of them.
-/
import proofs.«145915_j59158879535331_1_alg».proof.Proof.Spec
import proofs.«145915_j59158879535331_1_alg».proof.Proof.Gen.ReferenceIdeal.Run
import proofs.«145915_j59158879535331_1_alg».proof.Proof.Gen.ReferenceIdeal.Read
import Idealize.ShloMosaic.PureOps.Ideal.Laws
import Idealize.ShloMosaic.PureOps.Reduce
import Idealize.ShloMosaic.Lib.ValueIdx

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Read Cert.Chamfer

/-- The matrix of distances at (p, q) is |x p - y q|. -/
theorem dmat_apply (x0 x1 : FVec Ideal S16384 .f32) (p q : Fin 16384) :
    val_main_v5 (F := Ideal) x0 x1 (ix2 p q) = dist (x0 (ix1 p)) (x1 (ix1 q)) := by
  rw [val_main_v5_apply, val_main_v4_apply, val_main_v2_apply, val_main_v0_apply, val_main_v3_apply,
    val_main_v1_apply]
  -- the two chains of broadcasts read x at the row coordinate and y at the column coordinate
  have e0 : idx_main_v0 (idx_main_v2 (ix2 p q)) = ix1 p := by
    funext a; match a with | ⟨0, _⟩ => rfl
  have e1 : idx_main_v1 (idx_main_v3 (ix2 p q)) = ix1 q := by
    funext a; match a with | ⟨0, _⟩ => rfl
  rw [e0, e1]
  -- on the extended reals the absolute value of a - b is the larger of a - b and its negation
  rfl

/-- Removing the column axis of the square leaves the array's shape. -/
theorem red1 : S16384x16384.Reduces [1] S16384 := by decide

/-- Removing the row axis of the square leaves the array's shape. -/
theorem red0 : S16384x16384.Reduces [0] S16384 := by decide

/-- Row p with the column coordinate q inserted is the point (p, q). -/
theorem lift1 (p q : Fin 16384) : red1.lift (ix1 p) q = ix2 p q := by
  funext a; match a with | ⟨0, _⟩ => rfl | ⟨1, _⟩ => rfl

/-- Column q with the row coordinate p inserted is the point (p, q). -/
theorem lift0 (q p : Fin 16384) : red0.lift (ix1 q) p = ix2 p q := by
  funext a; match a with | ⟨0, _⟩ => rfl | ⟨1, _⟩ => rfl

/-- The first reduce starts from +infinity, the top of the extended reals. -/
theorem cst_top : val_main_cst (F := Ideal) (Shape.Idx.first h_S_) = (⊤ : EReal) := by
  rw [val_main_cst_apply]; simp [Ideal.ofBits, Ideal.ieee]

/-- So does the second. -/
theorem cst1_top : val_main_cst_1 (F := Ideal) (Shape.Idx.first h_S_) = (⊤ : EReal) := by
  rw [val_main_cst_1_apply]; simp [Ideal.ofBits, Ideal.ieee]

/-- The reduce along the columns is the array of row minima. -/
theorem row_isRowMin (x0 x1 : FVec Ideal S16384 .f32) : IsRowMin x0 x1 (val_main_v6 (F := Ideal) x0 x1) := by
  intro p z
  unfold val_main_v6
  have hD : ∀ q : Fin 16384, val_main_v5 (F := Ideal) x0 x1 (ix2 p q) = dist (x0 (ix1 p)) (x1 (ix1 q)) :=
    fun q => dmat_apply x0 x1 p q
  generalize val_main_v5 (F := Ideal) x0 x1 = D at hD ⊢
  -- at row p the reduce is the minimum, from +infinity, of the matrix over the column coordinate
  have h := Host.reduce_eq_fold_single (FloatOps.minimumf (F := Ideal) (φ := .f32)) D (val_main_cst (F := Ideal))
    reducesTo_S16384x16384_S16384_d1 red1 h_S_ (ix1 p)
  refine (iff_of_eq (congrArg (z ≤ ·) h)).trans ?_
  -- z is below that minimum exactly when it is below +infinity (always) and below every term
  refine (Finset.le_fold_min (β := EReal) z).trans ⟨fun hh q => ?_, fun hh => ⟨?_, fun (q : Fin 16384) _ => ?_⟩⟩
  · have : z ≤ D (red1.lift (ix1 p) q) := hh.2 q (Finset.mem_univ _)
    rwa [lift1 p q, hD] at this
  · rw [cst_top]; exact le_top
  · show z ≤ D (red1.lift (ix1 p) q)
    rw [lift1 p q, hD]; exact hh q

/-- The reduce along the rows is the array of column minima. -/
theorem col_isColMin (x0 x1 : FVec Ideal S16384 .f32) : IsColMin x0 x1 (val_main_v8 (F := Ideal) x0 x1) := by
  intro q z
  unfold val_main_v8
  have hD : ∀ p : Fin 16384, val_main_v5 (F := Ideal) x0 x1 (ix2 p q) = dist (x0 (ix1 p)) (x1 (ix1 q)) :=
    fun p => dmat_apply x0 x1 p q
  generalize val_main_v5 (F := Ideal) x0 x1 = D at hD ⊢
  -- at column q the reduce is the minimum, from +infinity, of the matrix over the row coordinate
  have h := Host.reduce_eq_fold_single (FloatOps.minimumf (F := Ideal) (φ := .f32)) D (val_main_cst_1 (F := Ideal))
    reducesTo_S16384x16384_S16384_d0 red0 h_S_ (ix1 q)
  refine (iff_of_eq (congrArg (z ≤ ·) h)).trans ?_
  refine (Finset.le_fold_min (β := EReal) z).trans ⟨fun hh p => ?_, fun hh => ⟨?_, fun (p : Fin 16384) _ => ?_⟩⟩
  · have : z ≤ D (red0.lift (ix1 q) p) := hh.2 p (Finset.mem_univ _)
    rwa [lift0 q p, hD] at this
  · rw [cst1_top]; exact le_top
  · show z ≤ D (red0.lift (ix1 q) p)
    rw [lift0 q p, hD]; exact hh p

/-- The program's result is the closing scalar function of the two arrays of minima. -/
theorem result_eq_tail (x0 x1 : FVec Ideal S16384 .f32) :
    val_main_v14 (F := Ideal) x0 x1
      = tail reducesTo_S16384_S_d0 h_S_ (val_main_v6 (F := Ideal) x0 x1) (val_main_v8 (F := Ideal) x0 x1) := by
  -- the last seven operations are the closing function's, applied to the two arrays of minima whatever they are
  unfold val_main_v14 val_main_v11 val_main_v13 val_main_v10 val_main_v12 val_main_v7 val_main_v9
  generalize val_main_v6 (F := Ideal) x0 x1 = R
  generalize val_main_v8 (F := Ideal) x0 x1 = C
  rfl

/-- The reference's run: it ends with the closing function of its two arrays of minima, the arguments unchanged. -/
theorem run_tail (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
          = tail reducesTo_S16384_S_d0 h_S_
              (val_main_v6 (F := Ideal) (m ((c.tc : Thread nD τ).loc main_arg0)) (m ((c.tc : Thread nD τ).loc main_arg1)))
              (val_main_v8 (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run (defs (F := Ideal)) _ _).mono (fun _ h c => ⟨(h c).1.trans ?_, (h c).2⟩)
    (Cert.ReferenceIdeal.Value.run (F := Ideal) m ρ)
  exact (val_main_v14_eq _ _).trans (result_eq_tail _ _)

end Cert.ReferenceIdeal.RefValue

end
-- ==== Proof.lean ====
/-
  The one-dimensional Chamfer distance of two arrays x, y of 16384 floats: the kernel walks the 16384 x 16384 matrix of
  distances |x p - y q| in 1024 x 1024 tiles, keeping for each row of tiles a running block of row minima (restarted
  from +infinity at the first tile of the row and written back after the last) and one running array of column minima
  (restarted from +infinity at the very first tile only and written back after the last tile of all); the host then
  forms 0.5 * (sum of the row minima) / 16384 + 0.5 * (sum of the column minima) / 16384. The reference takes the two
  minima of the whole matrix at once and forms the same expression.
  Frames: the kernel's, at either reading of the floats, from the body's run in each of the three cases the two resets
  leave over the grid and the pipeline's launch; the reference's from its run. The idealization rewrote nothing. Over
  the extended reals a minimum is determined by its universal property (z is below it exactly when z is below every
  term), and by that property the kernel's tile-by-tile minima and the reference's whole-matrix minima are the same
  two arrays; both programs then apply the same closing scalar function to them. No law beyond the order's is used, so
  the finiteness of the inputs is never needed.
-/
import proofs.«145915_j59158879535331_1_alg».proof.Defs
import proofs.«145915_j59158879535331_1_alg».proof.Proof.Gen.Kernel
import proofs.«145915_j59158879535331_1_alg».proof.Proof.Gen.KernelIdeal
import proofs.«145915_j59158879535331_1_alg».proof.Proof.Gen.ReferenceIdeal
import proofs.«145915_j59158879535331_1_alg».proof.Proof.Gen.Pre_finite_inputs
import proofs.«145915_j59158879535331_1_alg».proof.Proof.Spec
import proofs.«145915_j59158879535331_1_alg».proof.Proof.K.Frame
import proofs.«145915_j59158879535331_1_alg».proof.Proof.KI.Final
import proofs.«145915_j59158879535331_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Body.frame (F := Bits) m ρ

/-- So does its idealization. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the closing scalar function of the row minima and the column minima of one matrix of
    distances: the kernel's two arrays and the reference's satisfy the same universal properties, hence are equal. -/
theorem algebraic : Cert.algebraic_KernelIdeal_ReferenceIdeal := by
  intro m ρ m' ρ' _ hagree
  refine ⟨fun c => Cert.Chamfer.tail Cert.KernelIdeal.Facts₀.reducesTo_S16384_S_d0 Cert.KernelIdeal.Facts₀.h_S_
      (Cert.KernelIdeal.Final.Rk m c) (Cert.KernelIdeal.Final.Ck m c), Cert.KernelIdeal.Final.run m ρ, ?_⟩
  refine (θ_run Cert.ReferenceIdeal.defs _ _).mono (fun _ h c => ⟨(h c).1.trans ?_, (h c).2⟩)
    (Cert.ReferenceIdeal.RefValue.run_tail m' ρ')
  have hR : Cert.ReferenceIdeal.Read.val_main_v6 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      = Cert.KernelIdeal.Final.Rk m c := by
    rw [(hagree c).1, (hagree c).2]
    exact Cert.Chamfer.IsRowMin.unique (Cert.ReferenceIdeal.RefValue.row_isRowMin _ _) (Cert.KernelIdeal.Final.Rk_isRowMin m c)
  have hC : Cert.ReferenceIdeal.Read.val_main_v8 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      = Cert.KernelIdeal.Final.Ck m c := by
    rw [(hagree c).1, (hagree c).2]
    exact Cert.Chamfer.IsColMin.unique (Cert.ReferenceIdeal.RefValue.col_isColMin _ _) (Cert.KernelIdeal.Final.Ck_isColMin m c)
  rw [hR, hC]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
